-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg3 : IVec S600000 32) (main_v33 : IVec S_ 1) : IVec S_ 1 :=
  let main_c_12 : IVec S_ 32 := constantI S_ 32 4294917296#32
  let main_v34 : IVec S600000 32 := broadcastInDim S600000 ![] bcast_S_S600000 main_c_12
  let main_v35 : IVec S600000 1 := cmpi .sge main_arg3 main_v34
  let main_c_13 : IVec S_ 32 := constantI S_ 32 50000#32
  let main_v36 : IVec S600000 32 := broadcastInDim S600000 ![] bcast_S_S600000 main_c_13
  let main_v37 : IVec S600000 1 := cmpi .slt main_arg3 main_v36
  let main_v38 : IVec S600000 1 := andi main_v35 main_v37
  let main_c_14 : IVec S_ 1 := constantI S_ 1 1#1
  let main_v39 : IVec S_ 1 := (fun x v => Host.reduce IntOp.andi x v reducesTo_S600000_S_d0 h_S_) main_v38 main_c_14
  let main_v40 : IVec S_ 1 := andi main_v33 main_v39
  main_v40

def fn_part1 {F : FTy → Type} [FloatOps F] (main_arg3 : IVec S600000 32) (main_arg6 : FVec F S128 .f32) (main_arg7 : FVec F S128x128 .f32) (main_arg8 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_v33

def fn {F : FTy → Type} [FloatOps F] (main_arg0 : FVec F S50000x128 .f32) (main_arg1 : FVec F S600000x64 .f32) (main_arg2 : IVec S600000 32) (main_arg3 : IVec S600000 32) (main_arg4 : FVec F S128x128 .f32) (main_arg5 : FVec F S64x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg1
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg3 main_arg6 main_arg7 main_arg8 main_v13 main_v16
-- ==== Kernel.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S128 : Shape := ⟨1, ![128]⟩
abbrev S5000x128 : Shape := ⟨2, ![5000, 128]⟩
abbrev S600000x128 : Shape := ⟨2, ![600000, 128]⟩
abbrev S12000x64 : Shape := ⟨2, ![12000, 64]⟩
abbrev S12000x128 : Shape := ⟨2, ![12000, 128]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩

abbrev nBuf : Space → Nat
  | .hbm => 39
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000x128, .f32⟩
  | .hbm, ⟨10, _⟩ => ⟨S600000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S1, .i32⟩
  | .hbm, ⟨20, _⟩ => ⟨S_, .i32⟩
  | .hbm, ⟨21, _⟩ => ⟨S600000x1, .i32⟩
  | .hbm, ⟨22, _⟩ => ⟨S600000x1, .i1⟩
  | .hbm, ⟨23, _⟩ => ⟨S1x1, .i32⟩
  | .hbm, ⟨24, _⟩ => ⟨S600000x1, .i32⟩
  | .hbm, ⟨25, _⟩ => ⟨S600000x1, .i1⟩
  | .hbm, ⟨26, _⟩ => ⟨S600000x1, .i1⟩
  | .hbm, ⟨27, _⟩ => ⟨S_, .i1⟩
  | .hbm, ⟨28, _⟩ => ⟨S600000, .i1⟩
  | .hbm, ⟨29, _⟩ => ⟨S600000x128, .f32⟩
  | .hbm, ⟨30, _⟩ => ⟨S600000x128, .i1⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S12000x64, .f32⟩
  | .local _ .vmem, ⟨6, _⟩ => ⟨S12000x64, .f32⟩
  | .local _ .vmem, ⟨7, _⟩ => ⟨S64x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S12000x128, .f32⟩
  | .local _ .vmem, ⟨12, _⟩ => ⟨S12000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S12000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S12000x64_S12000x64_0_0 : ∀ a, (![0, 0] : Fin 2 → Nat) a + S12000x64.size a ≤ S12000x64.size a
  h_S12000x64 : 0 < S12000x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S12000x128 : S1x128.Broadcasts S12000x128
  inb_S12000x128_S12000x128_0_0 : ∀ a, (![0, 0] : Fin 2 → Nat) a + S12000x128.size a ≤ S12000x128.size a
  h_S12000x128 : 0 < S12000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  dot_S12000x64_S64x128_S12000x128_1_0_0_1_n_n_wf : DotDims.WF S12000x64 S64x128 S12000x128 [1] [0] [0] [1] [] []
  dot_S12000x128_S128x128_S12000x128_1_0_0_1_n_n_wf : DotDims.WF S12000x128 S128x128 S12000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S600000x64.size a
  hwx1_0 : ∀ i : grid1.Coords, EltTy.bits .f32 = 32 ∨ (Rect.block (s := S600000x64) S12000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S12000x128.size a ≤ S600000x128.size a
  hwx1_5 : ∀ i : grid1.Coords, EltTy.bits .f32 = 32 ∨ (Rect.block (s := S600000x128) S12000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S12000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S128 : Shape := ⟨1, ![128]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S600000x128, .f32⟩
  | .hbm, ⟨10, _⟩ => ⟨S1x128, .f32⟩
  | .hbm, ⟨11, _⟩ => ⟨S600000x128, .f32⟩
  | .hbm, ⟨12, _⟩ => ⟨S600000x128, .f32⟩
  | .hbm, ⟨13, _⟩ => ⟨S_, .f32⟩
  | .hbm, ⟨14, _⟩ => ⟨S600000x128, .f32⟩
  | .hbm, ⟨15, _⟩ => ⟨S600000x128, .i1⟩
  | .hbm, ⟨16, _⟩ => ⟨S_, .f32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S600000x128, .f32⟩
  | .hbm, ⟨21, _⟩ => ⟨S1x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S600000x128, .f32⟩
  | .hbm, ⟨26, _⟩ => ⟨S600000x128, .i1⟩
  | .hbm, ⟨27, _⟩ => ⟨S_, .f32⟩
  | .hbm, ⟨28, _⟩ => ⟨S600000x128, .f32⟩
  | .hbm, ⟨29, _⟩ => ⟨S600000x128, .f32⟩
  | .hbm, ⟨30, _⟩ => ⟨S600000x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  dot_S600000x64_S64x128_S600000x128_1_0_0_1_n_n_wf : DotDims.WF S600000x64 S64x128 S600000x128 [1] [0] [0] [1] [] []
  dot_S600000x128_S128x128_S600000x128_1_0_0_1_n_n_wf : DotDims.WF S600000x128 S128x128 S600000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.IndexRange.lean ====
/-
  The precondition's last conjunct read back: every entry of the gather index array lies in `[-50000, 50000)` as a
  signed 32-bit integer — the range in which indexing an axis of extent 50000 is defined, negative entries counting
  from the end.
-/
import proofs.«415112_j9740985827683_2_alg».proof.Pre_finite_inputs
import proofs.«415112_j9740985827683_2_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable {F : FTy → Type} [FloatOps F]

instance : Subsingleton S_.Idx := ⟨fun a b => funext fun d => d.elim0⟩

/-- The printed predicate ends in the conjunction of everything before with the `all` over the index test. -/
theorem fn_eq_part2 (a0 : FVec F S50000x128 .f32) (a1 : FVec F S600000x64 .f32) (a2 a3 : IVec S600000 32)
    (a4 : FVec F S128x128 .f32) (a5 : FVec F S64x128 .f32) (a6 : FVec F S128 .f32) (a7 : FVec F S128x128 .f32)
    (a8 : FVec F S128 .f32) : ∃ v : IVec S_ 1, fn (F := F) a0 a1 a2 a3 a4 a5 a6 a7 a8 = fn_part2 (F := F) a3 v :=
  ⟨_, rfl⟩

/-- Where the precondition holds, each gather index is at least `-50000` and below `50000` as a signed integer. -/
theorem index_range (a0 : FVec F S50000x128 .f32) (a1 : FVec F S600000x64 .f32) (a2 a3 : IVec S600000 32)
    (a4 : FVec F S128x128 .f32) (a5 : FVec F S64x128 .f32) (a6 : FVec F S128 .f32) (a7 : FVec F S128x128 .f32)
    (a8 : FVec F S128 .f32) (h : fn (F := F) a0 a1 a2 a3 a4 a5 a6 a7 a8 = fun _ => 1#1) (e : S600000.Idx) :
    -50000 ≤ (a3 e).toInt ∧ (a3 e).toInt < 50000 := by
  obtain ⟨v, hv⟩ := fn_eq_part2 a0 a1 a2 a3 a4 a5 a6 a7 a8
  have h0 : fn_part2 (F := F) a3 v ix0 = 1#1 := by rw [← hv, h]
  obtain ⟨-, h2⟩ := IntOp.andi_eq_one.1 (show IntOp.andi (v ix0) _ = 1#1 from h0)
  have h3 := Host.reduce_andi_all _ _ _ _ _ h2 e
  obtain ⟨h4, h5⟩ := IntOp.andi_eq_one.1
    (show IntOp.andi (IntOp.cmpi .sge (a3 e) 4294917296#32) (IntOp.cmpi .slt (a3 e) 50000#32) = 1#1 from h3)
  rw [IntOp.cmpi_sge] at h4
  rw [IntOp.cmpi_slt] at h5
  exact ⟨h4, h5⟩

end Cert.Pre_finite_inputs.Decode

end
-- ==== Proof.LibReduceAnd.lean ====
/-
  A reduction by `and` over one-bit words, read in the direction a proof of a mask needs: if the initial value is 1 and
  every element of the operand is 1, the reduced word is 1 at every result index, whatever axes are reduced and whatever
  the extents are. (The converse direction, from a reduced 1 to every element, is the library's `Host.reduce_andi_all`.)
-/
import Idealize.ShloMosaic.Lib.ReduceAll

namespace Idealize.ShloMosaic

namespace IntOp

/-- A left fold by `and` from 1 over a list of one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..), show andi 1#1 1#1 = 1#1 by decide]
    exact foldl_andi_of_all f l fun n hn => h n (List.mem_cons_of_mem _ hn)

end IntOp

namespace Host

variable {s t u : Shape} {axes : List (Fin s.rank)}

/-- A `stablehlo.reduce` by `and` from the initial word 1 of an operand whose elements are all 1 is 1 at every index of
    the result: for any shapes and any reduced axes. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.KernelTail.lean ====
/-
  The kernel program's host operations after its two regions, as functions of whole arrays: the row lookup
  (`take` in its filling mode: wrap a negative index by the extent, test the wrapped index against `[0, 49999]`,
  gather, and put the fill value where the test fails), the product with the edge features, and the segment sum.
  Where every index lies in `[-50000, 50000)` the test never fails, and the lookup is the plain gather at the wrapped
  indices.
-/
import proofs.«415112_j9740985827683_2_alg».proof.Proof.Gen.KernelIdeal.Frame
import proofs.«415112_j9740985827683_2_alg».proof.Proof.LibReduceAnd
import Idealize.ShloMosaic.Lib.StableHlo.Run
import Idealize.ShloMosaic.Lib.Pipeline.Value
import Idealize.ShloMosaic.Lib.ValueIdx
import Idealize.ShloMosaic.Lib.WordArith

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

/-- An index counted from the end when negative: `i + 50000` where `i < 0`, else `i`, on 32-bit words. -/
def wrapIdx (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- The wrapped indices as the gather's start indices, one per edge. -/
def startIdx (idx : IVec S600000 32) : IVec S600000x1 32 :=
  broadcastInDim S600000x1 ![0] bcast_S600000_S600000x1_0 (wrapIdx idx)

/-- The lookup's range test, one bit per edge: `0 ≤ w ≤ 49999` for the wrapped index `w`. -/
def inBounds (idx : IVec S600000 32) : IVec S600000 1 :=
  Host.reduce IntOp.andi
    (andi (cmpi .sge (startIdx idx) (broadcastInDim S600000x1 ![] bcast_S_S600000x1 (constantI S_ 32 0#32)))
      (cmpi .sle (startIdx idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The filling row lookup: the gathered row where the test holds, the fill word elsewhere. -/
def takeRows (x : FVec Ideal S50000x128 .f32) (idx : IVec S600000 32) : FVec Ideal S600000x128 .f32 :=
  select (broadcastInDim S600000x128 ![0] bcast_S600000_S600000x128_0 (inBounds idx))
    (Host.gather gather_S50000x128_S600000x1_S600000x128_1_0_n_n_0_1_1128 x (startIdx idx))
    (broadcastInDim S600000x128 ![] bcast_S_S600000x128 (constant S_ .f32 0x7FC00000#32))

/-- The segment sum of the products: rows of `g * e` added into the rows of a zero array that `seg` names. -/
def segSum (g e : FVec Ideal S600000x128 .f32) (seg : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 seg) (mulf g e)

set_option maxRecDepth 131072 in
/-- The lookup stretch leaves the filling lookup of the node projection's rows in its result buffer. -/
theorem take_read (W : Valuation τ sig (Elt Ideal)) :
    StableHlo.after (hostOps2 (F := Ideal)) W (Proc.devRef .tc main_v2)
      = takeRows (W (Proc.devRef .tc main_v0)) (W (Proc.devRef .tc main_arg3)) := by
  after_results_simp
  simp only [cast_eq]
  rfl

/-- The lookup stretch writes neither the edge features' buffer nor the segment ids. -/
theorem take_keeps_v1 (W : Valuation τ sig (Elt Ideal)) :
    StableHlo.after (hostOps2 (F := Ideal)) W (Proc.devRef .tc main_v1) = W (Proc.devRef .tc main_v1) := by
  after_results_simp
theorem take_keeps_arg2 (W : Valuation τ sig (Elt Ideal)) :
    StableHlo.after (hostOps2 (F := Ideal)) W (Proc.devRef .tc main_arg2) = W (Proc.devRef .tc main_arg2) := by
  after_results_simp

/-- The last stretch leaves the segment sum of the products in the result buffer. -/
theorem sum_read (W : Valuation τ sig (Elt Ideal)) :
    StableHlo.after (hostOps2_1 (F := Ideal)) W (Proc.devRef .tc main_v6)
      = segSum (W (Proc.devRef .tc main_v2)) (W (Proc.devRef .tc main_v1)) (W (Proc.devRef .tc main_arg2)) := by
  after_results
  rfl

/-- A word in `[-50000, 50000)`, 50000 added where it is negative, lies in `[0, 49999]`: both comparisons of the range
    test come out 1. -/
theorem wrapped_in_range (w : BitVec 32) (h1 : -50000 ≤ w.toInt) (h2 : w.toInt < 50000) :
    IntOp.andi (IntOp.cmpi .sge (Scalar.select (IntOp.cmpi .slt w 0#32) (w + 50000#32) w) 0#32)
      (IntOp.cmpi .sle (Scalar.select (IntOp.cmpi .slt w 0#32) (w + 50000#32) w) 49999#32) = 1#1 := by
  have e0 : (0#32 : BitVec 32).toInt = 0 := by decide
  have e1 : (49999#32 : BitVec 32).toInt = 49999 := by decide
  have e2 : (50000#32 : BitVec 32).toInt = 50000 := by decide
  by_cases hn : w.toInt < 0
  · have hc : IntOp.cmpi .slt w 0#32 = 1#1 := IntOp.cmpi_slt.2 (by rw [e0]; exact hn)
    have hs : (w + 50000#32).toInt = w.toInt + 50000 := by
      rw [WordArith.toInt_add_of_bounds w 50000#32 (by rw [e2]; omega) (by rw [e2]; omega), e2]
    rw [hc, select_one]
    exact IntOp.andi_eq_one.2 ⟨IntOp.cmpi_sge.2 (by rw [e0, hs]; omega), IntOp.cmpi_sle.2 (by rw [e1, hs]; omega)⟩
  · have hc : IntOp.cmpi .slt w 0#32 = 0#1 :=
      eq_zero_of_ne_one fun h => hn (by have := IntOp.cmpi_slt.1 h; rwa [e0] at this)
    rw [hc, select_zero]
    exact IntOp.andi_eq_one.2 ⟨IntOp.cmpi_sge.2 (by rw [e0]; omega), IntOp.cmpi_sle.2 (by rw [e1]; omega)⟩

/-- With every index in `[-50000, 50000)` the wrapped index is in `[0, 49999]`, so the range test holds at every
    edge and the filling lookup is the gather at the wrapped indices. -/
theorem takeRows_eq_gather (x : FVec Ideal S50000x128 .f32) (idx : IVec S600000 32)
    (hr : ∀ e : S600000.Idx, -50000 ≤ (idx e).toInt ∧ (idx e).toInt < 50000) :
    takeRows x idx = Host.gather gather_S50000x128_S600000x1_S600000x128_1_0_n_n_0_1_1128 x (startIdx idx) := by
  funext i
  have hb : inBounds idx (ix1 (⟨(i 0).val, idx2_lt0 i⟩ : Fin 600000)) = 1#1 := by
    unfold inBounds
    refine Host.reduce_andi_of_all _ _ _ _ rfl (fun j => ?_) _
    have hw : startIdx idx j = wrapIdx idx (ix1 (⟨(j 0).val, idx2_lt0 j⟩ : Fin 600000)) :=
      broadcastInDim_apply _ bcast_S600000_S600000x1_0 (wrapIdx idx) j _ (fun a => match a with
        | ⟨0, _⟩ => by show (j 0).val = if (600000 : Nat) = 1 then 0 else (j 0).val; rw [if_neg (by decide)])
    obtain ⟨h1, h2⟩ := hr (ix1 (⟨(j 0).val, idx2_lt0 j⟩ : Fin 600000))
    show IntOp.andi (IntOp.cmpi .sge (startIdx idx j) 0#32) (IntOp.cmpi .sle (startIdx idx j) 49999#32) = 1#1
    rw [hw]
    show IntOp.andi
      (IntOp.cmpi .sge (Scalar.select (IntOp.cmpi .slt (idx (ix1 (⟨(j 0).val, idx2_lt0 j⟩ : Fin 600000))) 0#32)
        (idx (ix1 (⟨(j 0).val, idx2_lt0 j⟩ : Fin 600000)) + 50000#32) (idx (ix1 (⟨(j 0).val, idx2_lt0 j⟩ : Fin 600000)))) 0#32)
      (IntOp.cmpi .sle (Scalar.select (IntOp.cmpi .slt (idx (ix1 (⟨(j 0).val, idx2_lt0 j⟩ : Fin 600000))) 0#32)
        (idx (ix1 (⟨(j 0).val, idx2_lt0 j⟩ : Fin 600000)) + 50000#32) (idx (ix1 (⟨(j 0).val, idx2_lt0 j⟩ : Fin 600000)))) 49999#32) = 1#1
    generalize idx (ix1 (⟨(j 0).val, idx2_lt0 j⟩ : Fin 600000)) = w at h1 h2
    exact wrapped_in_range w h1 h2
  have hm : broadcastInDim S600000x128 ![0] bcast_S600000_S600000x128_0 (inBounds idx) i
      = inBounds idx (ix1 (⟨(i 0).val, idx2_lt0 i⟩ : Fin 600000)) :=
    broadcastInDim_apply _ bcast_S600000_S600000x128_0 (inBounds idx) i _ (fun a => match a with
      | ⟨0, _⟩ => by show (i 0).val = if (600000 : Nat) = 1 then 0 else (i 0).val; rw [if_neg (by decide)])
  unfold takeRows
  rw [select_apply, hm, hb, select_one]

end Cert.KernelIdeal.Tail

end
-- ==== Proof.Spec.lean ====
/-
  The two dense stages of the message-passing layer as functions of whole arrays over the extended reals, index by
  index: the bias-free node projection (a matrix product), and the two-layer edge network with a leaky rectifier after
  each affine map. Both programs compute exactly these two arrays before the shared gather, product and segment sum.
-/
import Idealize.ShloMosaic.PureOps.Ideal
import Idealize.ShloMosaic.Lib.ValueIdx

noncomputable section

namespace Cert.Spec

open Idealize.ShloMosaic Idealize.ShloMosaic.ValueIdx

/-- The leaky rectifier on an extended real: `a` where `a ≥ 0` holds as a float comparison, the slope literal times
    `a` elsewhere. The slope is kept as its binary word: both programs carry the same word, so it is never evaluated. -/
def leaky (a : EReal) : EReal :=
  Scalar.select (Ideal.cmp .oge a (Ideal.ofBits .f32 0x00000000#32)) a (Ideal.ofBits .f32 0x3C23D70A#32 * a)

/-- The node projection: row `r` of the nodes against column `c` of the weights, `∑ k, x[r, k] · w[k, c]`. -/
def nodeProj (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (⟨(i 0).val, idx2_lt0 i⟩ : Fin 50000) k) * w (ix2 k (⟨(i 1).val, idx2_lt1 i⟩ : Fin 128))

/-- The hidden layer of the edge network at edge `r`, unit `k`: `leaky (∑ j, e[r, j] · w1[j, k] + b1[k])`. -/
def hidden (e : (⟨2, ![600000, 64]⟩ : Shape).Idx → EReal) (w1 : (⟨2, ![64, 128]⟩ : Shape).Idx → EReal)
    (b1 : (⟨1, ![128]⟩ : Shape).Idx → EReal) (r : Fin 600000) (k : Fin 128) : EReal :=
  leaky ((∑ j : Fin 64, e (ix2 r j) * w1 (ix2 j k)) + b1 (ix1 k))

/-- The edge network: `leaky (∑ k, hidden[r, k] · w2[k, c] + b2[c])` at edge `r`, channel `c`. -/
def edgeMlp (e : (⟨2, ![600000, 64]⟩ : Shape).Idx → EReal) (w1 : (⟨2, ![64, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![600000, 128]⟩ : Shape).Idx → EReal :=
  fun i => leaky ((∑ k : Fin 128, hidden e w1 b1 (⟨(i 0).val, idx2_lt0 i⟩ : Fin 600000) k
      * w2 (ix2 k (⟨(i 1).val, idx2_lt1 i⟩ : Fin 128))) + b2 (ix1 (⟨(i 1).val, idx2_lt1 i⟩ : Fin 128)))

end Cert.Spec

end
-- ==== Proof.NodeProjValue.lean ====
/-
  The node projection of the message-passing layer, as the kernel's first region computes it: one grid point multiplies a
  block of 5000 node rows by the whole 128 × 128 weight matrix, and the ten row blocks tile the 50000 × 128 output. Read
  here: the block product at an index (a plain sum over the 128 shared channels, the narrowing casts being the identity on
  the extended reals); each input block as rows of its array; what a point writes back as a block of the specification's
  `nodeProj`; and, the blocks covering the array, the whole output array as `nodeProj` of the nodes and the weights.
-/
import proofs.«415112_j9740985827683_2_alg».proof.Proof.Gen.KernelIdeal.Frame
import proofs.«415112_j9740985827683_2_alg».proof.Proof.Spec
import Idealize.ShloMosaic.Lib.Pipeline.Value
import Idealize.ShloMosaic.Lib.ValueIdx
import Idealize.ShloMosaic.PureOps.Ideal.Laws

noncomputable section

namespace Cert.KernelIdeal.NodeProjValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of one block at an index -/

/-- The left operand's row axis is the result's row axis. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column axis is the summed axis. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row axis is the summed axis. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column axis is the result's column axis. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's product at row `p`, column `q`: the narrowing casts are the identity on the extended reals and the
    product into a zero accumulator is the plain sum `∑ k, x[p, k] · w[k, q]`. -/
theorem blockProduct_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## What one grid point writes back -/

/-- Both coordinates of the body's one load and one store offset are zero. -/
theorem zeroOffsets : (![0, 0] : Fin 2 → Nat) = fun _ => 0 := funext fun a => by fin_cases a <;> rfl

/-- The printed index maps, decided once over the ten grid points: the nodes block moves with the output block along the
    rows, point `t` writes row block `t`, and every other block index is zero. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

section Blocks

variable (V : (c : Dev nD) → (b : Ref sig .tc) → Buf (Elt Ideal) ((c : Thread nD τ).loc b))

/-- Row `p`, column `k` of the nodes block at point `t` is the nodes array at row `(output row block) · 5000 + p`,
    column `k`. -/
theorem nodesBlock_apply (c : Dev nD) (t : Fin cfg0.N) (p : Fin 5000) (k : Fin 128) (r : Fin 50000)
    (hr : r.val = win0_2.index t (0 : Fin 2) * 5000 + 1 * p.val) :
    (iblk0 (F := Ideal) V c 0 t : Vec Ideal S5000x128 .f32) (ix2 p k) = (V c main_arg0 : S50000x128.Idx → EReal) (ix2 r k) := by
  obtain ⟨e0, e1, -, -, -, -⟩ := blockIndices t
  unfold iblk0
  rw [View.read_apply]
  show V c main_arg0 _ = V c main_arg0 _
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights block at every point is the whole weights array. -/
theorem weightsBlock_apply (c : Dev nD) (t : Fin cfg0.N) (k : Fin 128) (q : Fin 128) (s : Fin 128) (hs : s.val = q.val) :
    (iblk0 (F := Ideal) V c 1 t : Vec Ideal S128x128 .f32) (ix2 k q) = (V c main_arg4 : S128x128.Idx → EReal) (ix2 k s) := by
  obtain ⟨-, -, e2, e3, -, -⟩ := blockIndices t
  unfold iblk0
  rw [View.read_apply]
  show V c main_arg4 _ = V c main_arg4 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = s.val; omega

/-- The product of the two input blocks at point `t`, at an index of the block, is the node projection of the whole
    arrays at that index's place in the output array. -/
theorem blockEntry (c : Dev nD) (t : Fin cfg0.N) (j : S5000x128.Idx) :
    k0_pay1 (iblk0 (F := Ideal) V c 0 t) (iblk0 (F := Ideal) V c 1 t) j
      = Cert.Spec.nodeProj (V c main_arg0) (V c main_arg4) (((cfg0.win 2).blk t).view.emb j) := by
  obtain ⟨p, q, rfl⟩ : ∃ (p : Fin 5000) (q : Fin 128), j = ix2 p q := ⟨j 0, j 1, eq_ix2 j⟩
  obtain ⟨-, -, -, -, e4, -⟩ := blockIndices t
  have h0 : ((((cfg0.win 2).blk t).view.emb (ix2 p q)) 0).val = win0_2.index t (0 : Fin 2) * 5000 + 1 * p.val := rfl
  have h1 : ((((cfg0.win 2).blk t).view.emb (ix2 p q)) 1).val = win0_2.index t (1 : Fin 2) * 128 + 1 * q.val := rfl
  refine (blockProduct_apply (iblk0 (F := Ideal) V c 0 t) (iblk0 (F := Ideal) V c 1 t) p q).trans ?_
  unfold Cert.Spec.nodeProj
  refine Finset.sum_congr rfl fun k _ => ?_
  exact congrArg₂ (· * ·) (nodesBlock_apply V c t p k _ h0) (weightsBlock_apply V c t k q _ (by rw [h1]; omega))

/-- What point `t` writes back is block `t` of the node projection of the arrays as the region finds them. -/
theorem flushed_eq (c : Dev nD) (t : Fin cfg0.N) :
    (dat0 (F := Ideal) V c).flushed 2 t
      = ((cfg0.win 2).blk t).view.read (Elt Ideal) (Cert.Spec.nodeProj (V c main_arg0) (V c main_arg4)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  funext j
  exact blockEntry V c t j

end Blocks

/-! ## From the blocks to the array -/

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the output lies in the block of point `r / 5000`: the ten row blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, e4, e5⟩ := blockIndices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region's last point is the node projection of the nodes and the weights as the region
    finds them. -/
theorem final (V : (c : Dev nD) → (b : Ref sig .tc) → Buf (Elt Ideal) ((c : Thread nD τ).loc b)) (c : Dev nD) :
    (dat0 (F := Ideal) V c).arrAt 2 cfg0.N = Cert.Spec.nodeProj (V c main_arg0) (V c main_arg4) :=
  (dat0 (F := Ideal) V c).arrAt_eq_of_cover 2 (Cert.Spec.nodeProj (V c main_arg0) (V c main_arg4))
    (fun t _ => flushed_eq V c t) covered

end Cert.KernelIdeal.NodeProjValue

end
-- ==== Proof.EdgeMlpPayload.lean ====
/-
  The edge network's arithmetic on one block of 12000 edges, read at an edge and a channel: two matrix products into a
  zero accumulator, each followed by a bias row spread over the edges and by the leaky rectifier. At the extended reals
  the narrowing of a product's operands is the identity and a product into zero is the plain sum over the contracted
  axis, so the block's entry is the specification's formula on the block's own rows.
-/
import proofs.«415112_j9740985827683_2_alg».proof.Proof.Gen.KernelIdeal.Skeleton
import proofs.«415112_j9740985827683_2_alg».proof.Proof.Spec
import Idealize.ShloMosaic.Lib.ValueIdx
import Idealize.ShloMosaic.Lib.ValueLayout
import Idealize.ShloMosaic.PureOps.Ideal.Laws

noncomputable section

namespace Cert.KernelIdeal.EdgeMlpPayload

open Cert.KernelIdeal Cert.KernelIdeal.Gen Idealize.ShloMosaic Idealize.ShloMosaic.TcCoe Idealize.SL.Sem
open Idealize.ShloMosaic.ValueIdx

/-! ## The first product, edges [12000, 64] against weights [64, 128]: which operand entries a result entry reads -/

/-- The left operand's row is the result's row. -/
theorem lhs_first_0 (i : S12000x128.Idx) (q : dot_S12000x64_S64x128_S12000x128_1_0_0_1_n_n.contr.Idx) :
    (dot_S12000x64_S64x128_S12000x128_1_0_0_1_n_n.lhsIdx i q 0).val = (i 0).val := by
  unfold DotDims.lhsIdx
  rw [dif_neg (show ¬(0 : Fin S12000x64.rank) ∈ dot_S12000x64_S64x128_S12000x128_1_0_0_1_n_n.lhsBatch by decide),
    dif_pos (show (0 : Fin S12000x64.rank) ∈ dot_S12000x64_S64x128_S12000x128_1_0_0_1_n_n.lhsNonContracting by decide)]
  rfl
/-- The left operand's column is the contraction index. -/
theorem lhs_first_1 (i : S12000x128.Idx) (q : dot_S12000x64_S64x128_S12000x128_1_0_0_1_n_n.contr.Idx) :
    (dot_S12000x64_S64x128_S12000x128_1_0_0_1_n_n.lhsIdx i q 1).val = (q ⟨0, by decide⟩).val :=
  dot_S12000x64_S64x128_S12000x128_1_0_0_1_n_n.lhsIdx_val_of_single rfl i q
/-- The right operand's row is the contraction index. -/
theorem rhs_first_0 (i : S12000x128.Idx) (q : dot_S12000x64_S64x128_S12000x128_1_0_0_1_n_n.contr.Idx) :
    (dot_S12000x64_S64x128_S12000x128_1_0_0_1_n_n.rhsIdx i q 0).val = (q ⟨0, by decide⟩).val :=
  dot_S12000x64_S64x128_S12000x128_1_0_0_1_n_n.rhsIdx_val_of_single rfl i q
/-- The right operand's column is the result's column. -/
theorem rhs_first_1 (i : S12000x128.Idx) (q : dot_S12000x64_S64x128_S12000x128_1_0_0_1_n_n.contr.Idx) :
    (dot_S12000x64_S64x128_S12000x128_1_0_0_1_n_n.rhsIdx i q 1).val = (i 1).val := by
  unfold DotDims.rhsIdx
  rw [dif_neg (show ¬(1 : Fin S64x128.rank) ∈ dot_S12000x64_S64x128_S12000x128_1_0_0_1_n_n.rhsBatch by decide),
    dif_pos (show (1 : Fin S64x128.rank) ∈ dot_S12000x64_S64x128_S12000x128_1_0_0_1_n_n.rhsNonContracting by decide)]
  rfl

/-- Entry (p, q) of the first product is the sum over the 64 edge features of edge row p against weight column q. -/
theorem first_product_apply (x : FVec Ideal S12000x64 .bf16) (w : FVec Ideal S64x128 .bf16) (p : Fin 12000) (q : Fin 128) :
    matmul dot_S12000x64_S64x128_S12000x128_1_0_0_1_n_n none x w (constant S12000x128 .f32 0x00000000#32) (ix2 p q)
      = ∑ k : Fin 64, x (ix2 p k) * w (ix2 k q) := by
  simp only [matmul]
  rw [Ideal.matmul_constant_zero_apply, ← Equiv.sum_comp (contrEquiv1 dot_S12000x64_S64x128_S12000x128_1_0_0_1_n_n 64 rfl rfl).symm]
  refine Finset.sum_congr rfl fun k _ => ?_
  have hk := contrEquiv1_symm_val dot_S12000x64_S64x128_S12000x128_1_0_0_1_n_n 64 rfl rfl k
  have el : dot_S12000x64_S64x128_S12000x128_1_0_0_1_n_n.lhsIdx (ix2 p q) ((contrEquiv1 dot_S12000x64_S64x128_S12000x128_1_0_0_1_n_n 64 rfl rfl).symm k) = ix2 p k :=
    funext fun a => Fin.ext (by
      match a with
      | ⟨0, _⟩ => exact lhs_first_0 _ _
      | ⟨1, _⟩ => exact (lhs_first_1 _ _).trans hk)
  have er : dot_S12000x64_S64x128_S12000x128_1_0_0_1_n_n.rhsIdx (ix2 p q) ((contrEquiv1 dot_S12000x64_S64x128_S12000x128_1_0_0_1_n_n 64 rfl rfl).symm k) = ix2 k q :=
    funext fun a => Fin.ext (by
      match a with
      | ⟨0, _⟩ => exact (rhs_first_0 _ _).trans hk
      | ⟨1, _⟩ => exact rhs_first_1 _ _)
  rw [el, er]

/-! ## The second product, hidden [12000, 128] against weights [128, 128] -/

/-- The left operand's row is the result's row. -/
theorem lhs_second_0 (i : S12000x128.Idx) (q : dot_S12000x128_S128x128_S12000x128_1_0_0_1_n_n.contr.Idx) :
    (dot_S12000x128_S128x128_S12000x128_1_0_0_1_n_n.lhsIdx i q 0).val = (i 0).val := by
  unfold DotDims.lhsIdx
  rw [dif_neg (show ¬(0 : Fin S12000x128.rank) ∈ dot_S12000x128_S128x128_S12000x128_1_0_0_1_n_n.lhsBatch by decide),
    dif_pos (show (0 : Fin S12000x128.rank) ∈ dot_S12000x128_S128x128_S12000x128_1_0_0_1_n_n.lhsNonContracting by decide)]
  rfl
/-- The left operand's column is the contraction index. -/
theorem lhs_second_1 (i : S12000x128.Idx) (q : dot_S12000x128_S128x128_S12000x128_1_0_0_1_n_n.contr.Idx) :
    (dot_S12000x128_S128x128_S12000x128_1_0_0_1_n_n.lhsIdx i q 1).val = (q ⟨0, by decide⟩).val :=
  dot_S12000x128_S128x128_S12000x128_1_0_0_1_n_n.lhsIdx_val_of_single rfl i q
/-- The right operand's row is the contraction index. -/
theorem rhs_second_0 (i : S12000x128.Idx) (q : dot_S12000x128_S128x128_S12000x128_1_0_0_1_n_n.contr.Idx) :
    (dot_S12000x128_S128x128_S12000x128_1_0_0_1_n_n.rhsIdx i q 0).val = (q ⟨0, by decide⟩).val :=
  dot_S12000x128_S128x128_S12000x128_1_0_0_1_n_n.rhsIdx_val_of_single rfl i q
/-- The right operand's column is the result's column. -/
theorem rhs_second_1 (i : S12000x128.Idx) (q : dot_S12000x128_S128x128_S12000x128_1_0_0_1_n_n.contr.Idx) :
    (dot_S12000x128_S128x128_S12000x128_1_0_0_1_n_n.rhsIdx i q 1).val = (i 1).val := by
  unfold DotDims.rhsIdx
  rw [dif_neg (show ¬(1 : Fin S128x128.rank) ∈ dot_S12000x128_S128x128_S12000x128_1_0_0_1_n_n.rhsBatch by decide),
    dif_pos (show (1 : Fin S128x128.rank) ∈ dot_S12000x128_S128x128_S12000x128_1_0_0_1_n_n.rhsNonContracting by decide)]
  rfl

/-- Entry (p, q) of the second product is the sum over the 128 hidden units of hidden row p against weight column q, whatever the hidden layer is. -/
theorem second_product_apply (x : FVec Ideal S12000x128 .bf16) (w : FVec Ideal S128x128 .bf16) (p : Fin 12000) (q : Fin 128) :
    matmul dot_S12000x128_S128x128_S12000x128_1_0_0_1_n_n none x w (constant S12000x128 .f32 0x00000000#32) (ix2 p q)
      = ∑ k : Fin 128, x (ix2 p k) * w (ix2 k q) := by
  simp only [matmul]
  rw [Ideal.matmul_constant_zero_apply, ← Equiv.sum_comp (contrEquiv1 dot_S12000x128_S128x128_S12000x128_1_0_0_1_n_n 128 rfl rfl).symm]
  refine Finset.sum_congr rfl fun k _ => ?_
  have hk := contrEquiv1_symm_val dot_S12000x128_S128x128_S12000x128_1_0_0_1_n_n 128 rfl rfl k
  have el : dot_S12000x128_S128x128_S12000x128_1_0_0_1_n_n.lhsIdx (ix2 p q) ((contrEquiv1 dot_S12000x128_S128x128_S12000x128_1_0_0_1_n_n 128 rfl rfl).symm k) = ix2 p k :=
    funext fun a => Fin.ext (by
      match a with
      | ⟨0, _⟩ => exact lhs_second_0 _ _
      | ⟨1, _⟩ => exact (lhs_second_1 _ _).trans hk)
  have er : dot_S12000x128_S128x128_S12000x128_1_0_0_1_n_n.rhsIdx (ix2 p q) ((contrEquiv1 dot_S12000x128_S128x128_S12000x128_1_0_0_1_n_n 128 rfl rfl).symm k) = ix2 k q :=
    funext fun a => Fin.ext (by
      match a with
      | ⟨0, _⟩ => exact (rhs_second_0 _ _).trans hk
      | ⟨1, _⟩ => exact rhs_second_1 _ _)
  rw [el, er]

/-! ## The bias row and the rectifier -/

/-- A bias vector laid out as one row and spread over the 12000 edges reads, at edge p and channel q, its entry q. -/
theorem bias_apply (b : Vec Ideal S128 .f32) (p : Fin 12000) (q : Fin 128) :
    broadcastTo S12000x128 (shapeCast S1x128 b shapeCasts_S128_S1x128) broadcasts_S1x128_S12000x128 (ix2 p q) = b (ix1 q) := by
  rw [broadcastTo_1b_ab_apply, shapeCast_a_1a_apply]

/-- Choosing v where v ≥ 0 and the slope word times v elsewhere is the specification's rectifier, entry by entry. -/
theorem rectifier_apply (v : FVec Ideal S12000x128 .f32) (i : S12000x128.Idx) :
    select (cmpf .oge v (broadcast S12000x128 (Scalar.ofBits .f32 0x00000000#32)))
        v (mulf (broadcast S12000x128 (Scalar.ofBits .f32 0x3C23D70A#32)) v) i
      = Cert.Spec.leaky (v i) := rfl

/-! ## The block's entry -/

/-- The stored block at edge p, channel q: the rectifier of the hidden row p against weight column q plus the
    second bias, the hidden layer being the rectifier of the edge row against the first weights plus the first bias. -/
theorem payload_apply (e : Vec Ideal S12000x64 .f32) (w1 : Vec Ideal S64x128 .f32) (b1 : Vec Ideal S128 .f32)
    (w2 : Vec Ideal S128x128 .f32) (b2 : Vec Ideal S128 .f32) (p : Fin 12000) (q : Fin 128) :
    k1_pay1 e w1 b1 w2 b2 (ix2 p q)
      = Cert.Spec.leaky ((∑ k : Fin 128, Cert.Spec.leaky ((∑ j : Fin 64, e (ix2 p j) * w1 (ix2 j k)) + b1 (ix1 k)) * w2 (ix2 k q))
          + b2 (ix1 q)) := by
  unfold k1_pay1
  rw [rectifier_apply, addf_apply, second_product_apply, bias_apply]
  refine congrArg Cert.Spec.leaky (congrArg (· + b2 (ix1 q)) (Finset.sum_congr rfl fun k _ => ?_))
  rw [truncf_apply, truncf_apply, rectifier_apply, addf_apply, first_product_apply, bias_apply]
  refine congrArg (fun s => Cert.Spec.leaky (s + b1 (ix1 k)) * w2 (ix2 k q)) (Finset.sum_congr rfl fun j _ => ?_)
  rw [truncf_apply, truncf_apply]

end Cert.KernelIdeal.EdgeMlpPayload

end
-- ==== Proof.EdgeMlpValue.lean ====
/-
  The edge network's result array after the 50 row blocks have been written back: block t of the result is computed
  from rows 12000 t … 12000 t + 11999 of the edge features and from the whole weight and bias arrays, so it is block t
  of the specification's array; the 50 blocks cover the 600000 rows, so the array ends holding the specification.
-/
import proofs.«415112_j9740985827683_2_alg».proof.Proof.Gen.KernelIdeal.Frame
import proofs.«415112_j9740985827683_2_alg».proof.Proof.Spec
import proofs.«415112_j9740985827683_2_alg».proof.Proof.EdgeMlpPayload
import Idealize.ShloMosaic.Lib.Pipeline.Value
import Idealize.ShloMosaic.Lib.ValueIdx

noncomputable section

namespace Cert.KernelIdeal.EdgeMlpValue

open Cert.KernelIdeal Cert.KernelIdeal.Gen Idealize.ShloMosaic Idealize.ShloMosaic.TcCoe Idealize.SL.Sem
open Idealize.ShloMosaic.ValueIdx
open Idealize.ShloMosaic.Pipeline (Dat)

/-! ## The specification and the block's entry, side by side -/

/-- The specification at edge r, channel q, written out over the two coordinates. -/
theorem edgeMlp_ix2 (E : S600000x64.Idx → EReal) (W1 : S64x128.Idx → EReal) (B1 : S128.Idx → EReal)
    (W2 : S128x128.Idx → EReal) (B2 : S128.Idx → EReal) (r : Fin 600000) (q : Fin 128) :
    Cert.Spec.edgeMlp E W1 B1 W2 B2 (ix2 r q)
      = Cert.Spec.leaky ((∑ k : Fin 128, Cert.Spec.leaky ((∑ j : Fin 64, E (ix2 r j) * W1 (ix2 j k)) + B1 (ix1 k)) * W2 (ix2 k q))
          + B2 (ix1 q)) := rfl

/-- A block whose edge row p is row r of the edge features, and whose weights and biases are the whole arrays, holds
    at (p, q) the specification's entry (r, q). -/
theorem block_entry (E : S600000x64.Idx → EReal) (W1 : S64x128.Idx → EReal) (B1 : S128.Idx → EReal)
    (W2 : S128x128.Idx → EReal) (B2 : S128.Idx → EReal)
    (e : Vec Ideal S12000x64 .f32) (w1 : Vec Ideal S64x128 .f32) (b1 : Vec Ideal S128 .f32)
    (w2 : Vec Ideal S128x128 .f32) (b2 : Vec Ideal S128 .f32) (r : Fin 600000) (p : Fin 12000) (q : Fin 128)
    (he : ∀ j : Fin 64, e (ix2 p j) = E (ix2 r j))
    (hw1 : ∀ (j : Fin 64) (k : Fin 128), w1 (ix2 j k) = W1 (ix2 j k))
    (hb1 : ∀ k : Fin 128, b1 (ix1 k) = B1 (ix1 k))
    (hw2 : ∀ k n : Fin 128, w2 (ix2 k n) = W2 (ix2 k n))
    (hb2 : ∀ n : Fin 128, b2 (ix1 n) = B2 (ix1 n)) :
    k1_pay1 e w1 b1 w2 b2 (ix2 p q) = Cert.Spec.edgeMlp E W1 B1 W2 B2 (ix2 r q) := by
  rw [EdgeMlpPayload.payload_apply, edgeMlp_ix2]
  simp only [he, hw1, hb1, hw2, hb2]

/-! ## The windows' index maps over the grid -/

theorem hz2 : (![0, 0] : Fin 2 → Nat) = fun _ => 0 := funext fun a => by fin_cases a <;> rfl
theorem hz1 : (![0] : Fin 1 → Nat) = fun _ => 0 := funext fun a => by fin_cases a <;> rfl

/-- Decided over the 50 points: the edge features' window and the result's window are at row block t, column block 0;
    the weight and bias windows stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-! ## Each input block as rows of its array -/

/-- The edge features' block at point t: its row p is row 12000 t + p of the array. -/
theorem edges_block (c : Dev nD) (t : Fin cfg1.N) (p : Fin 12000) (j : Fin 64) (r : Fin 600000)
    (hr : r.val = t.val * 12000 + p.val) :
    (iblk1 V c 0 t : Vec Ideal S12000x64 .f32) (ix2 p j) = (V c main_arg1 : S600000x64.Idx → EReal) (ix2 r j) := by
  obtain ⟨e0, e1, -⟩ := idx_facts t
  unfold iblk1
  rw [View.read_apply]
  show (V c main_arg1 : S600000x64.Idx → EReal) _ = _
  congr 1
  funext a
  apply Fin.ext
  match a with
  | ⟨0, _⟩ => show win1_0.index t (0 : Fin 2) * 12000 + 1 * p.val = r.val; rw [e0, hr]; omega
  | ⟨1, _⟩ => show win1_0.index t (1 : Fin 2) * 64 + 1 * j.val = j.val; rw [e1]; omega

/-- The first weights' block is the whole array at every point. -/
theorem weights1_block (c : Dev nD) (t : Fin cfg1.N) (j : Fin 64) (k : Fin 128) :
    (iblk1 V c 1 t : Vec Ideal S64x128 .f32) (ix2 j k) = (V c main_arg5 : S64x128.Idx → EReal) (ix2 j k) := by
  obtain ⟨-, -, e0, e1, -⟩ := idx_facts t
  unfold iblk1
  rw [View.read_apply]
  show (V c main_arg5 : S64x128.Idx → EReal) _ = _
  congr 1
  funext a
  apply Fin.ext
  match a with
  | ⟨0, _⟩ => show win1_1.index t (0 : Fin 2) * 64 + 1 * j.val = j.val; rw [e0]; omega
  | ⟨1, _⟩ => show win1_1.index t (1 : Fin 2) * 128 + 1 * k.val = k.val; rw [e1]; omega

/-- The first bias's block is the whole vector at every point. -/
theorem bias1_block (c : Dev nD) (t : Fin cfg1.N) (k : Fin 128) :
    (iblk1 V c 2 t : Vec Ideal S128 .f32) (ix1 k) = (V c main_arg6 : S128.Idx → EReal) (ix1 k) := by
  obtain ⟨-, -, -, -, e0, -⟩ := idx_facts t
  unfold iblk1
  rw [View.read_apply]
  show (V c main_arg6 : S128.Idx → EReal) _ = _
  congr 1
  funext a
  apply Fin.ext
  match a with
  | ⟨0, _⟩ => show win1_2.index t (0 : Fin 1) * 128 + 1 * k.val = k.val; rw [e0]; omega

/-- The second weights' block is the whole array at every point. -/
theorem weights2_block (c : Dev nD) (t : Fin cfg1.N) (k n : Fin 128) :
    (iblk1 V c 3 t : Vec Ideal S128x128 .f32) (ix2 k n) = (V c main_arg7 : S128x128.Idx → EReal) (ix2 k n) := by
  obtain ⟨-, -, -, -, -, e0, e1, -⟩ := idx_facts t
  unfold iblk1
  rw [View.read_apply]
  show (V c main_arg7 : S128x128.Idx → EReal) _ = _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * n.val = n.val; rw [e1]; omega

/-- The second bias's block is the whole vector at every point. -/
theorem bias2_block (c : Dev nD) (t : Fin cfg1.N) (n : Fin 128) :
    (iblk1 V c 4 t : Vec Ideal S128 .f32) (ix1 n) = (V c main_arg8 : S128.Idx → EReal) (ix1 n) := by
  obtain ⟨-, -, -, -, -, -, -, e0, -⟩ := idx_facts t
  unfold iblk1
  rw [View.read_apply]
  show (V c main_arg8 : S128.Idx → EReal) _ = _
  congr 1
  funext a
  apply Fin.ext
  match a with
  | ⟨0, _⟩ => show win1_4.index t (0 : Fin 1) * 128 + 1 * n.val = n.val; rw [e0]; omega

/-! ## What a point writes back -/

/-- Point t writes back block t of the specification's array: entry (p, q) of the stored block is the specification at
    row 12000 t + p, channel q, which is where the result's rectangle puts (p, q). -/
theorem flushed_eq (c : Dev nD) (t : Fin cfg1.N) :
    (dat1 (F := Ideal) V c).flushed 5 t
      = ((cfg1.win 5).blk t).view.read (Elt Ideal)
          (Cert.Spec.edgeMlp (V c main_arg1) (V c main_arg5) (V c main_arg6) (V c main_arg7) (V c main_arg8)) := by
  show (cfg1.win 5).cut (grid1.coords t) ((dat1 V c).after 5 t) = _
  rw [after1_5]
  unfold out1_5
  rw [View.canon_unit_zero hz2]
  simp only [View.ld_unit_zero (S := S12000x64) hz2, View.ld_unit_zero (S := S64x128) hz2,
    View.ld_unit_zero (S := S128x128) hz2, View.ld_unit_zero (S := S128) hz1]
  have hN : t.val < 50 := lt_of_lt_of_eq t.isLt (N_1 : cfg1.N = 50)
  obtain ⟨-, -, -, -, -, -, -, -, e0, e1⟩ := idx_facts t
  funext y
  have hy0 : (y 0).val < 12000 := (y 0).isLt
  have hy1 : (y 1).val < 128 := (y 1).isLt
  obtain ⟨p, q, rfl⟩ : ∃ (p : Fin 12000) (q : Fin 128), y = ix2 p q := ⟨⟨(y 0).val, hy0⟩, ⟨(y 1).val, hy1⟩, eq_ix2 y⟩
  rw [View.read_apply]
  have hemb : ((cfg1.win 5).blk t).view.emb (ix2 p q) = (ix2 (⟨t.val * 12000 + p.val, by omega⟩ : Fin 600000) q : S600000x128.Idx) := by
    funext a
    apply Fin.ext
    match a with
    | ⟨0, _⟩ => show win1_5.index t (0 : Fin 2) * 12000 + 1 * p.val = t.val * 12000 + p.val; rw [e0]; omega
    | ⟨1, _⟩ => show win1_5.index t (1 : Fin 2) * 128 + 1 * q.val = q.val; rw [e1]; omega
  rw [hemb]
  exact block_entry _ _ _ _ _ _ _ _ _ _ _ p q (fun j => edges_block V c t p j _ rfl) (weights1_block V c t)
    (bias1_block V c t) (weights2_block V c t) (bias2_block V c t)

/-! ## The blocks cover the array -/

/-- A row index is in point t's block iff each coordinate is in the block's range on its axis. -/
theorem mem_blk (t : Fin cfg1.N) (i : S600000x128.Idx) :
    i ∈ ((cfg1.win 5).blk t).view.set ↔ ∀ a : Fin 2, win1_5.index t a * S12000x128.size a ≤ (i a).val
      ∧ (i a).val < win1_5.index t a * S12000x128.size a + S12000x128.size a := by
  show i ∈ ((View.whole main_v1).slice (win1_5.rect t)).set ↔ _
  rw [View.set_slice_whole, Rect.mem_set_unit]
  exact Iff.rfl

/-- Row r lies in the block of point r / 12000. -/
theorem cover (i : S600000x128.Idx) :
    ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 50 := N_1
  let t : Fin cfg1.N := ⟨(i 0).val / 12000, by rw [hN]; omega⟩
  have ht : t.val = (i 0).val / 12000 := rfl
  obtain ⟨-, -, -, -, -, -, -, -, e0, e1⟩ := idx_facts t
  refine ⟨t, flush1_5 t, ?_⟩
  rw [mem_blk]
  intro a
  match a with
  | ⟨0, _⟩ =>
    show win1_5.index t (0 : Fin 2) * 12000 ≤ (i 0).val ∧ (i 0).val < win1_5.index t (0 : Fin 2) * 12000 + 12000
    rw [e0, ht]; omega
  | ⟨1, _⟩ =>
    show win1_5.index t (1 : Fin 2) * 128 ≤ (i 1).val ∧ (i 1).val < win1_5.index t (1 : Fin 2) * 128 + 128
    rw [e1]; omega

/-! ## The array after the region -/

/-- After the 50 write-backs the result array holds the specification's edge network of the arrays the region found. -/
theorem final (c : Dev nD) :
    (dat1 (F := Ideal) V c).arrAt 5 cfg1.N
      = Cert.Spec.edgeMlp (V c main_arg1) (V c main_arg5) (V c main_arg6) (V c main_arg7) (V c main_arg8) :=
  (dat1 (F := Ideal) V c).arrAt_eq_of_cover 5
    (Cert.Spec.edgeMlp (V c main_arg1) (V c main_arg5) (V c main_arg6) (V c main_arg7) (V c main_arg8))
    (fun t _ => flushed_eq V c t) cover

end Cert.KernelIdeal.EdgeMlpValue

end
-- ==== Proof.KernelResult.lean ====
/-
  The kernel program's result as one function of the launch memory: the segment sum, by segment id, of the product of
  the filling row lookup of the node projection with the edge network's output. Each stage is read where the run leaves
  it: the two regions' output arrays are the specification's two dense stages of the argument arrays, and the host
  operations after them are the lookup and the segment sum.
-/
import proofs.«415112_j9740985827683_2_alg».proof.Proof.KernelRun
import proofs.«415112_j9740985827683_2_alg».proof.Proof.KernelTail
import proofs.«415112_j9740985827683_2_alg».proof.Proof.NodeProjValue
import proofs.«415112_j9740985827683_2_alg».proof.Proof.EdgeMlpValue

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The kernel program's result on core `c`, from the argument arrays as launched. -/
def result (c : Dev nD) : FVec Ideal S50000x128 .f32 :=
  Tail.segSum
    (Tail.takeRows (Cert.Spec.nodeProj (m ((c.tc : Thread nD τ).loc main_arg0)) (m ((c.tc : Thread nD τ).loc main_arg4)))
      (m ((c.tc : Thread nD τ).loc main_arg3)))
    (Cert.Spec.edgeMlp (m ((c.tc : Thread nD τ).loc main_arg1)) (m ((c.tc : Thread nD τ).loc main_arg5))
      (m ((c.tc : Thread nD τ).loc main_arg6)) (m ((c.tc : Thread nD τ).loc main_arg7)) (m ((c.tc : Thread nD τ).loc main_arg8)))
    (m ((c.tc : Thread nD τ).loc main_arg2))

/-- After both regions the node projection's output array holds the projection of the launched nodes and weights:
    the second region does not write it, and the first leaves the specification's function of its two inputs. -/
theorem nodes_after (c : Dev nD) : W2 m ρ c (Proc.devRef .tc main_v0)
    = Cert.Spec.nodeProj (m ((c.tc : Thread nD τ).loc main_arg0)) (m ((c.tc : Thread nD τ).loc main_arg4)) :=
  (W2_of_ne m ρ c main_v0 (by decide)).trans ((W1_arr m ρ c 2).trans (NodeProjValue.final (V0 m ρ) c))

/-- The first region leaves every array the second one reads as launched. -/
theorem V1_arg1 (c : Dev nD) : V1 m ρ c main_arg1 = m ((c.tc : Thread nD τ).loc main_arg1) := W1_of_ne m ρ c main_arg1 (by decide)
theorem V1_arg5 (c : Dev nD) : V1 m ρ c main_arg5 = m ((c.tc : Thread nD τ).loc main_arg5) := W1_of_ne m ρ c main_arg5 (by decide)
theorem V1_arg6 (c : Dev nD) : V1 m ρ c main_arg6 = m ((c.tc : Thread nD τ).loc main_arg6) := W1_of_ne m ρ c main_arg6 (by decide)
theorem V1_arg7 (c : Dev nD) : V1 m ρ c main_arg7 = m ((c.tc : Thread nD τ).loc main_arg7) := W1_of_ne m ρ c main_arg7 (by decide)
theorem V1_arg8 (c : Dev nD) : V1 m ρ c main_arg8 = m ((c.tc : Thread nD τ).loc main_arg8) := W1_of_ne m ρ c main_arg8 (by decide)

/-- After both regions the edge network's output array holds the specification's function of the launched edges,
    weights and biases. -/
theorem edges_after (c : Dev nD) : W2 m ρ c (Proc.devRef .tc main_v1)
    = Cert.Spec.edgeMlp (m ((c.tc : Thread nD τ).loc main_arg1)) (m ((c.tc : Thread nD τ).loc main_arg5))
        (m ((c.tc : Thread nD τ).loc main_arg6)) (m ((c.tc : Thread nD τ).loc main_arg7)) (m ((c.tc : Thread nD τ).loc main_arg8)) := by
  refine (W2_arr m ρ c 5).trans ((EdgeMlpValue.final (V1 m ρ) c).trans ?_)
  rw [V1_arg1, V1_arg5, V1_arg6, V1_arg7, V1_arg8]

/-- Neither region writes the two index arrays. -/
theorem idx_after (c : Dev nD) : W2 m ρ c (Proc.devRef .tc main_arg3) = m ((c.tc : Thread nD τ).loc main_arg3) :=
  (W2_of_ne m ρ c main_arg3 (by decide)).trans (W1_of_ne m ρ c main_arg3 (by decide))
theorem seg_after (c : Dev nD) : W2 m ρ c (Proc.devRef .tc main_arg2) = m ((c.tc : Thread nD τ).loc main_arg2) :=
  (W2_of_ne m ρ c main_arg2 (by decide)).trans (W1_of_ne m ρ c main_arg2 (by decide))

/-- The contents of the result buffer at the last boundary are `result`. -/
theorem last_result (c : Dev nD) : W4 m ρ c (Proc.devRef .tc main_v6) = result m c := by
  show StableHlo.after (hostOps2_1 (F := Ideal)) (W3 m ρ c) (Proc.devRef .tc main_v6) = _
  rw [Tail.sum_read]
  show Tail.segSum (StableHlo.after (hostOps2 (F := Ideal)) (W2 m ρ c) (Proc.devRef .tc main_v2))
    (StableHlo.after (hostOps2 (F := Ideal)) (W2 m ρ c) (Proc.devRef .tc main_v1))
    (StableHlo.after (hostOps2 (F := Ideal)) (W2 m ρ c) (Proc.devRef .tc main_arg2)) = _
  rw [Tail.take_read, Tail.take_keeps_v1, Tail.take_keeps_arg2, nodes_after, edges_after, idx_after, seg_after]
  rfl

/-- The kernel program's run with its result named: every weakly fair execution terminates, nothing faulting, with
    `result` in the result buffer and the argument arrays as launched. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (last_result m ρ c), (h c).2⟩) (GenRun.run_result m ρ)

end Cert.KernelIdeal.Result

end
-- ==== Proof.RefValue.lean ====
/-
  The reference's two dense stages are the specification's functions, index by index. The node projection is one
  matrix product. The edge network is a product, a bias, a leaky rectifier, a second product over the rectified
  layer of the same edge, a second bias and a second rectifier; the two slope words and the two zero words are the
  same binary words on both sides and are never evaluated.
-/
import proofs.«415112_j9740985827683_2_alg».proof.Proof.Gen.ReferenceIdeal.Run
import proofs.«415112_j9740985827683_2_alg».proof.Proof.Gen.ReferenceIdeal.Read
import proofs.«415112_j9740985827683_2_alg».proof.Proof.Spec
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Idealize.ShloMosaic Idealize.SL.Sem
open Idealize.ShloMosaic.ValueIdx

/-- The node projection of the reference is the specification's matrix product: row `i 0` of the nodes against column `i 1`
    of the weights. -/
theorem nodeProj_eq (x0 : (⟨S50000x128, .f32⟩ : BufTy).Contents (Elt Ideal)) (x4 : (⟨S128x128, .f32⟩ : BufTy).Contents (Elt Ideal)) :
    val_main_v18 (F := Ideal) x0 x4 = Cert.Spec.nodeProj x0 x4 := by
  funext i
  rw [val_main_v18_apply]
  have el : ∀ k : Fin 128, lidx_main_v18 i k = ix2 (⟨(i 0).val, idx2_lt0 i⟩ : Fin 50000) k := fun k =>
    funext fun a => by match a with | ⟨0, _⟩ => rfl | ⟨1, _⟩ => rfl
  have er : ∀ k : Fin 128, ridx_main_v18 i k = ix2 k (⟨(i 1).val, idx2_lt1 i⟩ : Fin 128) := fun k =>
    funext fun a => by match a with | ⟨0, _⟩ => rfl | ⟨1, _⟩ => rfl
  simp only [el, er, Cert.Spec.nodeProj]

/-- The first rectified layer at edge `r`, unit `k`: the first product's row `r` against column `k`, plus the bias at `k`,
    through the leaky rectifier. Depends on row `r` of the edges, column `k` of the first weights and entry `k` of the
    first bias only. -/
theorem hidden_eq (x1 : (⟨S600000x64, .f32⟩ : BufTy).Contents (Elt Ideal)) (x5 : (⟨S64x128, .f32⟩ : BufTy).Contents (Elt Ideal))
    (x6 : (⟨S128, .f32⟩ : BufTy).Contents (Elt Ideal)) (r : Fin 600000) (k : Fin 128) :
    val_main_v8 (F := Ideal) x1 x5 x6 (ix2 r k) = Cert.Spec.hidden x1 x5 x6 r k := by
  have el : ∀ j : Fin 64, lidx_main_v0 (ix2 r k) j = ix2 r j := fun j =>
    funext fun a => by match a with | ⟨0, _⟩ => rfl | ⟨1, _⟩ => rfl
  have er : ∀ j : Fin 64, ridx_main_v0 (ix2 r k) j = ix2 j k := fun j =>
    funext fun a => by match a with | ⟨0, _⟩ => rfl | ⟨1, _⟩ => rfl
  have eb : idx_main_v1 (idx_main_v2 (ix2 r k)) = ix1 k :=
    funext fun a => by match a with | ⟨0, _⟩ => rfl
  simp only [val_main_v8_apply, val_main_v5_apply, val_main_v7_apply, val_main_v3_apply, val_main_v0_apply,
    val_main_v2_apply, val_main_v1_apply, val_main_v4_apply, val_main_cst_apply, val_main_v6_apply, val_main_cst_0_apply]
  simp only [el, er, eb, Ideal.mulf_def, Ideal.addf_def, Ideal.ofBits_def, Ideal.cmpf_def, Cert.Spec.hidden, Cert.Spec.leaky]

/-- The edge network of the reference is the specification's: the second product runs over the hidden layer of the same
    edge, then the second bias and the second rectifier. -/
theorem edgeMlp_eq (x1 : (⟨S600000x64, .f32⟩ : BufTy).Contents (Elt Ideal)) (x5 : (⟨S64x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v17 (F := Ideal) x1 x5 x6 x7 x8 = Cert.Spec.edgeMlp x1 x5 x6 x7 x8 := by
  funext i
  have el : ∀ k : Fin 128, lidx_main_v9 i k = ix2 (⟨(i 0).val, idx2_lt0 i⟩ : Fin 600000) k := fun k =>
    funext fun a => by match a with | ⟨0, _⟩ => rfl | ⟨1, _⟩ => rfl
  have er : ∀ k : Fin 128, ridx_main_v9 i k = ix2 k (⟨(i 1).val, idx2_lt1 i⟩ : Fin 128) := fun k =>
    funext fun a => by match a with | ⟨0, _⟩ => rfl | ⟨1, _⟩ => rfl
  have eb : idx_main_v10 (idx_main_v11 i) = ix1 (⟨(i 1).val, idx2_lt1 i⟩ : Fin 128) :=
    funext fun a => by match a with | ⟨0, _⟩ => rfl
  simp only [val_main_v17_apply, val_main_v14_apply, val_main_v16_apply, val_main_v12_apply, val_main_v9_apply,
    val_main_v11_apply, val_main_v10_apply, val_main_v13_apply, val_main_cst_1_apply, val_main_v15_apply, val_main_cst_2_apply]
  simp only [el, er, eb, hidden_eq, Ideal.mulf_def, Ideal.addf_def, Ideal.ofBits_def, Ideal.cmpf_def, Cert.Spec.edgeMlp, Cert.Spec.leaky]

end Cert.ReferenceIdeal.RefValue

end
-- ==== Proof.Bridge.lean ====
/-
  The two programs' results are one function of the arguments where every gather index lies in `[-50000, 50000)`:
  both wrap a negative index by the extent and gather the node projection's rows there, both multiply by the edge
  network's output and both add the products into a zero array by segment id. The kernel's lookup also tests the
  wrapped index against `[0, 49999]` and would put a fill value where the test fails; in the stated range it never
  fails. The node projection and the edge network are the specification's functions on both sides.
-/
import proofs.«415112_j9740985827683_2_alg».proof.Proof.KernelTail
import proofs.«415112_j9740985827683_2_alg».proof.Proof.RefValue

noncomputable section

namespace Cert.Bridge

open Idealize.ShloMosaic Idealize.SL.Sem

/-- The reference's result stage is the kernel's segment sum over the filling lookup, for indices in range. -/
theorem result_eq (x0 : FVec Ideal Cert.ReferenceIdeal.S50000x128 .f32) (x1 : FVec Ideal Cert.ReferenceIdeal.S600000x64 .f32)
    (x2 x3 : IVec Cert.ReferenceIdeal.S600000 32) (x4 : FVec Ideal Cert.ReferenceIdeal.S128x128 .f32)
    (x5 : FVec Ideal Cert.ReferenceIdeal.S64x128 .f32) (x6 : FVec Ideal Cert.ReferenceIdeal.S128 .f32)
    (x7 : FVec Ideal Cert.ReferenceIdeal.S128x128 .f32) (x8 : FVec Ideal Cert.ReferenceIdeal.S128 .f32)
    (hr : ∀ e : Cert.KernelIdeal.S600000.Idx, -50000 ≤ (x3 e).toInt ∧ (x3 e).toInt < 50000) :
    Cert.ReferenceIdeal.Read.val_main_v29 (F := Ideal) x0 x1 x2 x3 x4 x5 x6 x7 x8
      = Cert.KernelIdeal.Tail.segSum
          (Cert.KernelIdeal.Tail.takeRows (Cert.Spec.nodeProj x0 x4) x3) (Cert.Spec.edgeMlp x1 x5 x6 x7 x8) x2 := by
  rw [Cert.KernelIdeal.Tail.takeRows_eq_gather _ _ hr]
  unfold Cert.ReferenceIdeal.Read.val_main_v29 Cert.ReferenceIdeal.Read.val_main_v26 Cert.ReferenceIdeal.Read.val_main_v25
  rw [Cert.ReferenceIdeal.RefValue.nodeProj_eq, Cert.ReferenceIdeal.RefValue.edgeMlp_eq]
  rfl

end Cert.Bridge

end
-- ==== Proof.lean ====
/-
  The certificate of a graph message-passing layer. The kernel program computes the node projection and the two-layer
  edge network in two pipelined matrix kernels (operands rounded to bf16 on the way into the products, which is the
  identity on extended reals) and then, on the host, looks up a projected row per edge, multiplies by the edge features
  and sums the products by segment id; the reference does all of it on the host. Over the extended reals both are

      out[n, :] = ∑ over edges e with seg[e] = n of  (nodes · W_node)[index[e], :] * leaky(leaky(edges · W₁ + b₁) · W₂ + b₂)[e, :],

  the lookup and the segment sum being the same host operations on both sides. The one difference is the lookup's
  treatment of an index outside the array: the reference's plain gather clamps it, the kernel's filling lookup puts a
  fill value there. The precondition therefore states, beside finiteness of the float inputs, that every gather index
  lies in `[-50000, 50000)` (negative indices count from the end), the range in which indexing an axis of extent 50000
  is defined; there the two lookups agree. Finiteness itself is not used: no law beyond reading the sums index by
  index is needed.
-/
import proofs.«415112_j9740985827683_2_alg».proof.Defs
import proofs.«415112_j9740985827683_2_alg».proof.Proof.Gen.Kernel
import proofs.«415112_j9740985827683_2_alg».proof.Proof.Gen.Kernel.Frame
import proofs.«415112_j9740985827683_2_alg».proof.Proof.Gen.KernelIdeal
import proofs.«415112_j9740985827683_2_alg».proof.Proof.Gen.KernelIdeal.Frame
import proofs.«415112_j9740985827683_2_alg».proof.Proof.Gen.ReferenceIdeal
import proofs.«415112_j9740985827683_2_alg».proof.Proof.Gen.ReferenceIdeal.Run
import proofs.«415112_j9740985827683_2_alg».proof.Proof.Gen.ReferenceIdeal.Read
import proofs.«415112_j9740985827683_2_alg».proof.Proof.Gen.Pre_finite_inputs
import proofs.«415112_j9740985827683_2_alg».proof.Proof.IndexRange
import proofs.«415112_j9740985827683_2_alg».proof.Proof.KernelResult
import proofs.«415112_j9740985827683_2_alg».proof.Proof.Bridge

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the kernel program's result function of
    the arguments: the kernel by its run, the reference because its result stage is that function where the gather
    indices are in range, which the precondition says. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v29_eq, e0, e1, e2, e3, e4, e5, e6, e7, e8]
  exact Cert.Bridge.result_eq _ _ _ _ _ _ _ _ _
    (Cert.Pre_finite_inputs.Decode.index_range _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
